-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x8 : Shape := ⟨4, ![16, 64, 64, 8]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16x64x64x8 : S_.BroadcastsInDim S16x64x64x8 (![] : Fin 0 → Fin S16x64x64x8.rank)
  reducesTo_S16x64x64x8_S_d0_1_2_3 : S16x64x64x8.ReducesTo [0, 1, 2, 3] S_

variable [Facts]

def fn {F : FTy → Type} [FloatOps F] (main_arg0 : IVec S16x64x64x8 32) (main_arg1 : FVec F S8192x64 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_c_0 : IVec S_ 32 := constantI S_ 32 0#32
  let main_v4 : IVec S16x64x64x8 32 := broadcastInDim S16x64x64x8 ![] bcast_S_S16x64x64x8 main_c_0
  let main_v5 : IVec S16x64x64x8 1 := cmpi .sge main_arg0 main_v4
  let main_c_1 : IVec S_ 1 := constantI S_ 1 1#1
  let main_v6 : IVec S_ 1 := (fun x v => Host.reduce IntOp.andi x v reducesTo_S16x64x64x8_S_d0_1_2_3 h_S_) main_v5 main_c_1
  let main_v7 : IVec S_ 1 := andi main_v3 main_v6
  let main_c_2 : IVec S_ 32 := constantI S_ 32 8192#32
  let main_v8 : IVec S16x64x64x8 32 := broadcastInDim S16x64x64x8 ![] bcast_S_S16x64x64x8 main_c_2
  let main_v9 : IVec S16x64x64x8 1 := cmpi .slt main_arg0 main_v8
  let main_c_3 : IVec S_ 1 := constantI S_ 1 1#1
  let main_v10 : IVec S_ 1 := (fun x v => Host.reduce IntOp.andi x v reducesTo_S16x64x64x8_S_d0_1_2_3 h_S_) main_v9 main_c_3
  let main_v11 : IVec S_ 1 := andi main_v7 main_v10
  main_v11
-- ==== Kernel.lean ====
abbrev S16x64x64x8 : Shape := ⟨4, ![16, 64, 64, 8]⟩
abbrev S8192x64 : Shape := ⟨2, ![8192, 64]⟩
abbrev S_ : Shape := ⟨0, ![]⟩
abbrev S16x1x32768 : Shape := ⟨3, ![16, 1, 32768]⟩
abbrev S64x8192 : Shape := ⟨2, ![64, 8192]⟩
abbrev S16x64x32768 : Shape := ⟨3, ![16, 64, 32768]⟩
abbrev S1x1x2048 : Shape := ⟨3, ![1, 1, 2048]⟩
abbrev S1x64x2048 : Shape := ⟨3, ![1, 64, 2048]⟩
abbrev S1x2048 : Shape := ⟨2, ![1, 2048]⟩
abbrev S512x2048 : Shape := ⟨2, ![512, 2048]⟩
abbrev S64x2048 : Shape := ⟨2, ![64, 2048]⟩
abbrev S64x512 : Shape := ⟨2, ![64, 512]⟩
abbrev S16x64x64x64x8 : Shape := ⟨5, ![16, 64, 64, 64, 8]⟩

abbrev nBuf : Space → Nat
  | .hbm => 15
  | .vmem => 5
  | .smem => 0
  | _ => 0

abbrev bufTy : (tb : Table) → Fin (tcTables nBuf tb) → BufTy
  | .hbm, ⟨0, _⟩ => ⟨S16x64x64x8, .i32⟩
  | .hbm, ⟨1, _⟩ => ⟨S8192x64, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x64x64x8, .i32⟩
  | .hbm, ⟨6, _⟩ => ⟨S16x64x64x8, .i32⟩
  | .hbm, ⟨7, _⟩ => ⟨S_, .i32⟩
  | .hbm, ⟨8, _⟩ => ⟨S16x64x64x8, .i32⟩
  | .hbm, ⟨9, _⟩ => ⟨S16x64x64x8, .i32⟩
  | .hbm, ⟨10, _⟩ => ⟨S16x1x32768, .i32⟩
  | .hbm, ⟨11, _⟩ => ⟨S8192x64, .bf16⟩
  | .hbm, ⟨12, _⟩ => ⟨S64x8192, .bf16⟩
  | .hbm, ⟨13, _⟩ => ⟨S16x64x32768, .f32⟩
  | .hbm, ⟨14, _⟩ => ⟨S16x64x64x64x8, .f32⟩
  | .local _ .vmem, ⟨0, _⟩ => ⟨S1x1x2048, .i32⟩
  | .local _ .vmem, ⟨1, _⟩ => ⟨S1x1x2048, .i32⟩
  | .local _ .vmem, ⟨2, _⟩ => ⟨S64x8192, .bf16⟩
  | .local _ .vmem, ⟨3, _⟩ => ⟨S1x64x2048, .f32⟩
  | .local _ .vmem, ⟨4, _⟩ => ⟨S1x64x2048, .f32⟩
  | _, _ => ⟨S16x64x64x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v9 : BitVec 32 := Scalar.muli arg5 c512_i32
  v9
def k0_off1 (k0_t1 : Fin k0_t1_loop.trips) : Fin 2 → Nat :=
  let c0_6 : Index := 0#32
  let c0_i32 : BitVec 32 := 0#32
  let c1_i32 : BitVec 32 := 1#32
  let arg5 : BitVec 32 := Scf.iv c0_i32 c1_i32 k0_t1
  let c512_i32 : BitVec 32 := 512#32
  let v9 : BitVec 32 := Scalar.muli arg5 c512_i32
  let v10 : BitVec 32 := v9
  let v18 : Index := Scalar.indexCast v10
  ![0, v18.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16x64x64x8 : S_.BroadcastsInDim S16x64x64x8 (![] : Fin 0 → Fin S16x64x64x8.rank)
  shapeCasts_S16x64x64x8_S16x1x32768 : S16x64x64x8.ShapeCasts S16x1x32768
  bitsLt_bf16_f32 : FTy.bits .bf16 < FTy.bits .f32
  transposes_S8192x64_S64x8192_1_0 : S8192x64.Transposes [1, 0] S64x8192
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  iota_S512x2048_d0_w32 : S512x2048.Iotas .tc 32 [0]
  broadcasts_S1x2048_S512x2048 : S1x2048.Broadcasts S512x2048
  natLt_1_32 : 1 < 32
  h_S64x512 : 0 < S64x512.numel
  shapeCasts_S64x512_S64x512 : S64x512.ShapeCasts S64x512
  shapeCasts_S64x2048_S1x64x2048 : S64x2048.ShapeCasts S1x64x2048
  inb_S1x64x2048_S1x64x2048_0_0_0 : ∀ a, (![0, 0, 0] : Fin 3 → Nat) a + S1x64x2048.size a ≤ S1x64x2048.size a
  h_S1x64x2048 : 0 < S1x64x2048.numel
  shapeCasts_S16x64x32768_S16x64x64x64x8 : S16x64x32768.ShapeCasts S16x64x64x64x8
  dot_S64x512_S512x2048_S64x2048_1_0_0_1_n_n_wf : DotDims.WF S64x512 S512x2048 S64x2048 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S64x512.size a ≤ S64x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S16x1x32768.size a
  hwx0_0 : ∀ i : grid0.Coords, EltTy.bits .i32 = 32 ∨ (Rect.block (s := S16x1x32768) S1x1x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .bf16 = 32 ∨ (Rect.block (s := S64x8192) S64x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S16x64x32768.size a
  hwx0_2 : ∀ i : grid0.Coords, EltTy.bits .f32 = 32 ∨ (Rect.block (s := S16x64x32768) S1x64x2048.size (cc0_transform_2 i) (hinb0_2 i)).WholeWords (EltTy.packing .f32)

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_v1) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x8 : Shape := ⟨4, ![16, 64, 64, 8]⟩
abbrev S8192x64 : Shape := ⟨2, ![8192, 64]⟩
abbrev S_ : Shape := ⟨0, ![]⟩
abbrev S16x64x64x8x1 : Shape := ⟨5, ![16, 64, 64, 8, 1]⟩
abbrev S1 : Shape := ⟨1, ![1]⟩
abbrev S1x1x1x1x1 : Shape := ⟨5, ![1, 1, 1, 1, 1]⟩
abbrev S16x64x64x8x64 : Shape := ⟨5, ![16, 64, 64, 8, 64]⟩
abbrev S16x64x64x64x8 : Shape := ⟨5, ![16, 64, 64, 64, 8]⟩

abbrev nBuf : Space → Nat
  | .hbm => 26
  | .vmem => 0
  | .smem => 0
  | _ => 0

abbrev bufTy : (tb : Table) → Fin (tcTables nBuf tb) → BufTy
  | .hbm, ⟨0, _⟩ => ⟨S16x64x64x8, .i32⟩
  | .hbm, ⟨1, _⟩ => ⟨S8192x64, .f32⟩
  | .hbm, ⟨2, _⟩ => ⟨S_, .i32⟩
  | .hbm, ⟨3, _⟩ => ⟨S16x64x64x8, .i32⟩
  | .hbm, ⟨4, _⟩ => ⟨S16x64x64x8, .i1⟩
  | .hbm, ⟨5, _⟩ => ⟨S_, .i32⟩
  | .hbm, ⟨6, _⟩ => ⟨S16x64x64x8, .i32⟩
  | .hbm, ⟨7, _⟩ => ⟨S16x64x64x8, .i32⟩
  | .hbm, ⟨8, _⟩ => ⟨S16x64x64x8, .i32⟩
  | .hbm, ⟨9, _⟩ => ⟨S16x64x64x8x1, .i32⟩
  | .hbm, ⟨10, _⟩ => ⟨S1, .i32⟩
  | .hbm, ⟨11, _⟩ => ⟨S_, .i32⟩
  | .hbm, ⟨12, _⟩ => ⟨S16x64x64x8x1, .i32⟩
  | .hbm, ⟨13, _⟩ => ⟨S16x64x64x8x1, .i1⟩
  | .hbm, ⟨14, _⟩ => ⟨S1x1x1x1x1, .i32⟩
  | .hbm, ⟨15, _⟩ => ⟨S16x64x64x8x1, .i32⟩
  | .hbm, ⟨16, _⟩ => ⟨S16x64x64x8x1, .i1⟩
  | .hbm, ⟨17, _⟩ => ⟨S16x64x64x8x1, .i1⟩
  | .hbm, ⟨18, _⟩ => ⟨S_, .i1⟩
  | .hbm, ⟨19, _⟩ => ⟨S16x64x64x8, .i1⟩
  | .hbm, ⟨20, _⟩ => ⟨S16x64x64x8x64, .f32⟩
  | .hbm, ⟨21, _⟩ => ⟨S16x64x64x8x64, .i1⟩
  | .hbm, ⟨22, _⟩ => ⟨S_, .f32⟩
  | .hbm, ⟨23, _⟩ => ⟨S16x64x64x8x64, .f32⟩
  | .hbm, ⟨24, _⟩ => ⟨S16x64x64x8x64, .f32⟩
  | .hbm, ⟨25, _⟩ => ⟨S16x64x64x64x8, .f32⟩
  | _, _ => ⟨S16x64x64x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16x64x64x8 : S_.BroadcastsInDim S16x64x64x8 (![] : Fin 0 → Fin S16x64x64x8.rank)
  bcast_S16x64x64x8_S16x64x64x8x1_0_1_2_3 : S16x64x64x8.BroadcastsInDim S16x64x64x8x1 (![0, 1, 2, 3] : Fin 4 → Fin S16x64x64x8x1.rank)
  bcast_S_S16x64x64x8x1 : S_.BroadcastsInDim S16x64x64x8x1 (![] : Fin 0 → Fin S16x64x64x8x1.rank)
  bcast_S1_S1x1x1x1x1_4 : S1.BroadcastsInDim S1x1x1x1x1 (![4] : Fin 1 → Fin S1x1x1x1x1.rank)
  bcast_S1x1x1x1x1_S16x64x64x8x1_0_1_2_3_4 : S1x1x1x1x1.BroadcastsInDim S16x64x64x8x1 (![0, 1, 2, 3, 4] : Fin 5 → Fin S16x64x64x8x1.rank)
  reducesTo_S16x64x64x8x1_S16x64x64x8_d4 : S16x64x64x8x1.ReducesTo [4] S16x64x64x8
  h_S_ : 0 < S_.numel
  bcast_S16x64x64x8_S16x64x64x8x64_0_1_2_3 : S16x64x64x8.BroadcastsInDim S16x64x64x8x64 (![0, 1, 2, 3] : Fin 4 → Fin S16x64x64x8x64.rank)
  bcast_S_S16x64x64x8x64 : S_.BroadcastsInDim S16x64x64x8x64 (![] : Fin 0 → Fin S16x64x64x8x64.rank)
  transposes_S16x64x64x8x64_S16x64x64x64x8_0_4_1_2_3 : S16x64x64x8x64.Transposes [0, 4, 1, 2, 3] S16x64x64x64x8
  gather_S8192x64_S16x64x64x8x1_S16x64x64x8x64_4_0_n_n_0_4_164_wf : GatherDims.WF S8192x64 S16x64x64x8x1 S16x64x64x8x64 [4] [0] [] [0] [] 4 ![1, 64]

variable [Facts₀]

def gather_S8192x64_S16x64x64x8x1_S16x64x64x8x64_4_0_n_n_0_4_164 : GatherDims S8192x64 S16x64x64x8x1 S16x64x64x8x64 where
  offsetDims := [4]
  collapsedSliceDims := [0]
  operandBatchingDims := []
  startIndicesBatchingDims := []
  startIndexMap := [0]
  indexVectorDim := 4
  sliceSizes := ![1, 64]
  wf := gather_S8192x64_S16x64x64x8x1_S16x64x64x8x64_4_0_n_n_0_4_164_wf

class Facts : Prop extends Facts₀ where

variable [Facts]
-- ==== Proof.KerBlock.lean ====
/-
  What one grid point of the kernel leaves in its output block, as a pure function of the two input blocks.

  The body loads its index block `x0 : [1, 1, 2048]` once, then makes sixteen passes over the transposed
  table `wT : [64, 8192]`: pass `k` reads the `[64, 512]` slice of columns `512·k …`, multiplies it with
  a `[512, 2048]` matrix built from `x0` and `k`, and adds the product to the value it carries; the
  carried value starts at zero, and after the last pass it is stored, as a `[1, 64, 2048]` block, over
  the whole output block. So the block is `k0_pay3` of the sixteenth iterate of `k0_pay2` from
  `k0_pay1` — the three payloads of the body's skeleton — and this module says exactly that:
  `carried` is the recursion, `out_eq` the block. The run's piece list and one pass's yield are each
  read off their definitions here, once, and nowhere else.
-/
import proofs.«420841_j41901700940494_3_alg».proof.Proof.Gen.KernelIdeal.Frame
import Idealize.ShloMosaic.Lib.Pipeline.Value

noncomputable section

namespace Cert.KernelIdeal.Block

open Idealize.ShloMosaic Idealize.ShloMosaic.TcCoe Idealize.SL.Sem
open Cert.KernelIdeal Cert.KernelIdeal.Gen

variable {F : FTy → Type} [FloatOps F]

/-- The columns of the transposed table pass `k` reads: `[64, 512]` at offset `(0, 512·k)`. -/
abbrev slice (k : Fin k0_t1_loop.trips) : Rect S64x8192 :=
  Rect.unit (s := S64x8192) (k0_off1 k) S64x512.size (k0_off1_inb k)

/-- The value carried into pass `n`: zero, then one `k0_pay2` per pass over that pass's slice. -/
def carried (x0 : Vec F S1x1x2048 .i32) (wT : Vec F S64x8192 .bf16) : ℕ → FVec F S64x2048 .f32
  | 0 => k0_pay1
  | n + 1 =>
    if h : n < k0_t1_loop.trips then k0_pay2 x0 ⟨n, h⟩ (carried x0 wT n) (View.ld wT (slice ⟨n, h⟩))
    else carried x0 wT n

theorem carried_zero (x0 : Vec F S1x1x2048 .i32) (wT : Vec F S64x8192 .bf16) : carried x0 wT 0 = k0_pay1 := rfl

theorem carried_succ (x0 : Vec F S1x1x2048 .i32) (wT : Vec F S64x8192 .bf16) (k : Fin k0_t1_loop.trips) :
    carried x0 wT (k.val + 1) = k0_pay2 x0 k (carried x0 wT k.val) (View.ld wT (slice k)) := by
  rw [carried]; exact dif_pos k.isLt

/-- One pass yields `k0_pay2` of the carried value and the slice it loads. -/
theorem pass_eq (𝒱 : Variants) (c : Dev nD) (bd : Option 𝒱.V) (i : grid0.Coords)
    (arg2 : Memref sig .tc .vmem S1x1x2048 .i32) (harg2 : arg2.IsWhole)
    (arg3 : Memref sig .tc .vmem S64x8192 .bf16) (harg3 : arg3.IsWhole)
    (arg4 : Memref sig .tc .vmem S1x64x2048 .f32) (harg4 : arg4.IsWhole)
    (v0 : Vec F S1x1x2048 .i32) (X : BufTy.Contents (Elt F) arg3.view.ty) (k : Fin k0_t1_loop.trips)
    (acc : FVec F S64x2048 .f32) :
    tripR_k0_t1 (F := F) 𝒱 c bd i arg2 harg2 arg3 harg3 arg4 harg4 v0 X k acc
      = k0_pay2 v0 k acc (View.ld (arg3.view.read (Elt F) X) (slice k)) := by
  unfold tripR_k0_t1 trip_k0_t1
  rfl

/-- The generated recursion over the passes, on a whole table buffer holding `wT`, is `carried`. -/
theorem st_eq_carried (c : Dev nD) (i : grid0.Coords)
    (arg2 : Memref sig .tc .vmem S1x1x2048 .i32) (harg2 : arg2.IsWhole)
    (arg3 : Memref sig .tc .vmem S64x8192 .bf16) (harg3 : arg3.IsWhole)
    (arg4 : Memref sig .tc .vmem S1x64x2048 .f32) (harg4 : arg4.IsWhole)
    (x0 : Vec F S1x1x2048 .i32) (wT : Vec F S64x8192 .bf16) (n : ℕ) :
    st_k0_t1 (F := F) Variants.none c none i arg2 harg2 arg3 harg3 arg4 harg4 x0 (harg3.unread wT) k0_pay1 n
      = carried x0 wT n := by
  induction n with
  | zero => rfl
  | succ n ih =>
    rw [st_k0_t1.eq_2, carried]
    unfold st_k0_t1Step
    by_cases h : n < k0_t1_loop.trips
    · rw [dif_pos h, dif_pos h, pass_eq, ih, harg3.read_unread]
    · rw [dif_neg h, dif_neg h, ih]

/-- THE BLOCK: what the body leaves in the output block, on whole staging buffers holding `x0` and `wT`. -/
theorem out_eq (c : Dev nD) (i : grid0.Coords)
    (arg2 : Memref sig .tc .vmem S1x1x2048 .i32) (harg2 : arg2.IsWhole)
    (arg3 : Memref sig .tc .vmem S64x8192 .bf16) (harg3 : arg3.IsWhole)
    (arg4 : Memref sig .tc .vmem S1x64x2048 .f32) (harg4 : arg4.IsWhole)
    (x0 : Vec F S1x1x2048 .i32) (wT : Vec F S64x8192 .bf16) :
    out0_A_2 (F := F) c i arg2 harg2 arg3 harg3 arg4 harg4 x0 wT = k0_pay3 (carried x0 wT k0_t1_loop.trips) := by
  have hz : (![0, 0, 0] : Fin S1x64x2048.rank → Nat) = fun _ => 0 := by
    funext a; match a with | ⟨0, _⟩ => rfl | ⟨1, _⟩ => rfl | ⟨2, _⟩ => rfl
  have hz' : (![0, 0, 0] : Fin S1x1x2048.rank → Nat) = fun _ => 0 := hz
  unfold out0_A_2
  rw [View.read_writes_eq_canon _ _ _ (cover0_A_2 c i arg2 harg2 arg3 harg3 arg4 harg4 x0 wT)]
  unfold kernelRun0_A
  dsimp only
  rw [View.canon_unit_zero (S := S1x64x2048) hz]
  rw [View.readAt_eq_ld, harg2.read_unread, View.ld_unit_zero (S := S1x1x2048) hz']
  exact congrArg k0_pay3 (st_eq_carried c i arg2 harg2 arg3 harg3 arg4 harg4 x0 wT _)

end Cert.KernelIdeal.Block

end
-- ==== Proof.Spec.lean ====
/-
  The specification both programs are compared against: an embedding lookup laid out channel-major.

  `idx : [16, 64, 64, 8]` holds row numbers of the table `tab : [8192, 64]`; the result at
  `(b, c, h, w, t)` is `tab[idx[b, h, w, t], c]`. A row number is a 32-bit word; on the domain of the
  claim every word is below 8192 (`InRange`), and there its value as a natural number is the row.

  The second half is the one algebraic fact the kernel's arithmetic rests on: a sum of products with a
  one-hot factor is the single term the factor selects. It holds on all extended reals, infinities
  included, because only `x * 0 = 0`, `x * 1 = x` and `x + 0 = x` are used.
-/
import Idealize.ShloMosaic.PureOps.Ideal
import Idealize.ShloMosaic.Lib.ValueIdx

noncomputable section

open scoped BigOperators

namespace Cert.Lookup

open Idealize.ShloMosaic Idealize.ShloMosaic.ValueIdx

/-- The index array's shape, the table's, and the result's. -/
abbrev SIdx : Shape := ⟨4, ![16, 64, 64, 8]⟩
abbrev STab : Shape := ⟨2, ![8192, 64]⟩
abbrev SOut : Shape := ⟨5, ![16, 64, 64, 64, 8]⟩

/-- The domain of the claim: every index word is a row number of the table. -/
def InRange (idx : IVec SIdx 32) : Prop := ∀ i, (idx i).toNat < 8192

/-- The table row a word names: its value, cut at the last row so that the function is total. -/
def rowOf (a : BitVec 32) : Fin 8192 := ⟨min a.toNat 8191, by omega⟩

theorem rowOf_val_of_lt {a : BitVec 32} (h : a.toNat < 8192) : (rowOf a).val = a.toNat := by
  unfold rowOf; simp only []; omega

/-- THE LOOKUP: `out[b, c, h, w, t] = tab[idx[b, h, w, t], c]`. -/
def lookup (idx : IVec SIdx 32) (tab : FVec Ideal STab .f32) : FVec Ideal SOut .f32 := fun j =>
  let b : Fin 16 := j 0; let c : Fin 64 := j 1; let h : Fin 64 := j 2; let w : Fin 64 := j 3; let t : Fin 8 := j 4
  tab (ix2 (rowOf (idx (ix4 b h w t))) c)

theorem lookup_apply (idx : IVec SIdx 32) (tab : FVec Ideal STab .f32)
    (b : Fin 16) (c : Fin 64) (h : Fin 64) (w : Fin 64) (t : Fin 8) :
    lookup idx tab (ix5 b c h w t) = tab (ix2 (rowOf (idx (ix4 b h w t))) c) := rfl

/-! ## A one-hot contraction selects one term -/

/-- Over any finite index type: `∑ k, f k * [k = k₀] = f k₀` on the extended reals. -/
theorem sum_mul_onehot {ι : Type} [Fintype ι] [DecidableEq ι] (f : ι → EReal) (k₀ : ι) :
    ∑ k, f k * (if k = k₀ then (1 : EReal) else 0) = f k₀ := by
  have : ∀ k, f k * (if k = k₀ then (1 : EReal) else 0) = if k = k₀ then f k else 0 := by
    intro k; split <;> simp
  simp only [this]
  rw [Finset.sum_ite_eq' Finset.univ k₀ f]
  simp

/-- … and with no selected index the sum vanishes. -/
theorem sum_mul_zero {ι : Type} [Fintype ι] (f : ι → EReal) (g : ι → EReal) (hg : ∀ k, g k = 0) :
    ∑ k, f k * g k = 0 := by
  simp [hg]

end Cert.Lookup

end
-- ==== Proof.KerPass.lean ====
/-
  One pass of the kernel's loop, and all sixteen, read at an element at the ideal instance.

  Pass `k` adds to the carried `[64, 2048]` value the product of the table slice `wT[:, 512k … 512k+511]`
  with the matrix `hot[r, q] = 1 if idx[q] − 512k = r else 0` (the comparison of 32-bit words, widened
  and converted to a float: exactly 1 or 0). A column of `hot` has at most one 1 — at `r = idx[q] − 512k`
  when `512k ≤ idx[q] < 512k + 512` — so the product at `(p, q)` is `wT[p, idx[q]]` for such `q` and 0
  otherwise (`Cert.Lookup.sum_mul_onehot`: no finiteness of the table is needed). Hence, for row numbers
  below 8192, the value carried into pass `n` is `wT[p, idx[q]]` where `idx[q] < 512n` and 0 elsewhere,
  and after sixteen passes it is `wT[p, idx[q]]` everywhere.
-/
import proofs.«420841_j41901700940494_3_alg».proof.Proof.KerBlock
import proofs.«420841_j41901700940494_3_alg».proof.Proof.Spec
import Idealize.ShloMosaic.Lib.ValueIdx
import Idealize.ShloMosaic.Lib.StableHlo.Predicate
import Idealize.ShloMosaic.PureOps.Ideal.Laws

noncomputable section

open scoped BigOperators

namespace Cert.KernelIdeal.Block

open Idealize.ShloMosaic Idealize.ShloMosaic.ValueIdx
open Cert.KernelIdeal Cert.KernelIdeal.Gen

/-- The product's dimension numbers: `[64, 512] · [512, 2048]`, contracting the 512. -/
abbrev D := dot_S64x512_S512x2048_S64x2048_1_0_0_1_n_n

theorem trips_eq : k0_t1_loop.trips = 16 := by decide

/-- Pass `k`'s base row `512·k`, as the word the body computes. -/
theorem base_eq : ∀ k : Fin k0_t1_loop.trips, Scalar.muli (Scf.iv 0#32 1#32 k) 512#32 = BitVec.ofNat 32 (512 * k.val) := by
  decide +kernel

theorem lhs_0 (j : S64x2048.Idx) (κ : D.contr.Idx) : (D.lhsIdx j κ 0 : ℕ) = j 0 := by
  simp [DotDims.lhsIdx, D, dot_S64x512_S512x2048_S64x2048_1_0_0_1_n_n]; rfl
theorem lhs_1 (j : S64x2048.Idx) (κ : D.contr.Idx) : (D.lhsIdx j κ 1 : ℕ) = κ ⟨0, by decide⟩ := by
  simp [DotDims.lhsIdx, D, dot_S64x512_S512x2048_S64x2048_1_0_0_1_n_n]; rfl
theorem rhs_0 (j : S64x2048.Idx) (κ : D.contr.Idx) : (D.rhsIdx j κ 0 : ℕ) = κ ⟨0, by decide⟩ := by
  simp [DotDims.rhsIdx, D, dot_S64x512_S512x2048_S64x2048_1_0_0_1_n_n]; rfl
theorem rhs_1 (j : S64x2048.Idx) (κ : D.contr.Idx) : (D.rhsIdx j κ 1 : ℕ) = j 1 := by
  simp [DotDims.rhsIdx, D, dot_S64x512_S512x2048_S64x2048_1_0_0_1_n_n]; rfl

/-- The matrix product into a zero accumulator, at `(p, q)`: the sum over the 512 of the operands' products. -/
theorem matmul_at (lhs : FVec Ideal S64x512 .bf16) (rhs : FVec Ideal S512x2048 .bf16) (p : Fin 64) (q : Fin 2048) :
    matmul D none lhs rhs (constant (F := Ideal) S64x2048 .f32 0x00000000#32) (ix2 p q)
      = ∑ r : Fin 512, lhs (ix2 p r) * rhs (ix2 r q) := by
  refine (Ideal.matmul_constant_zero_apply D none lhs rhs (ix2 p q)).trans ?_
  rw [← Equiv.sum_comp (contrEquiv1 D 512 rfl rfl).symm]
  refine Finset.sum_congr rfl fun r _ => ?_
  have hl : D.lhsIdx (ix2 p q) ((contrEquiv1 D 512 rfl rfl).symm r) = ix2 p r := by
    funext a; refine Fin.ext ?_
    match a with
    | ⟨0, _⟩ => exact lhs_0 _ _
    | ⟨1, _⟩ => exact (lhs_1 _ _).trans (contrEquiv1_symm_val D 512 rfl rfl r)
  have hr : D.rhsIdx (ix2 p q) ((contrEquiv1 D 512 rfl rfl).symm r) = ix2 r q := by
    funext a; refine Fin.ext ?_
    match a with
    | ⟨0, _⟩ => exact (rhs_0 _ _).trans (contrEquiv1_symm_val D 512 rfl rfl r)
    | ⟨1, _⟩ => exact rhs_1 _ _
  rw [hl, hr]

/-- An entry of the compared-and-converted matrix: 1 where the shifted index word is the row number, else 0. -/
theorem hot_entry (v2 : IVec S1x2048 32) (b : BitVec 32) (r : Fin 512) (q : Fin 2048) :
    (truncf .bf16 (sitofp (F := Ideal) .f32 (extui 32 (cmpi .eq (broadcastTo S512x2048 (subi v2 (broadcast S1x2048 b))
        broadcasts_S1x2048_S512x2048) (iota .tc S512x2048 32 [0] iota_S512x2048_d0_w32)) natLt_1_32)) bitsLt_bf16_f32
      : FVec Ideal S512x2048 .bf16) (ix2 r q)
      = if v2 (ix2 0 q) - b = BitVec.ofNat 32 r.val then (1 : EReal) else 0 := by
  have hb : (broadcastTo S512x2048 (subi v2 (broadcast S1x2048 b)) broadcasts_S1x2048_S512x2048) (ix2 r q) = v2 (ix2 0 q) - b := by
    refine (broadcastTo_apply _ _ (ix2 r q) (ix2 0 q) ?_).trans rfl
    intro a
    match a with
    | ⟨0, _⟩ => rfl
    | ⟨1, _⟩ => rfl
  have hi : iota .tc S512x2048 32 [0] iota_S512x2048_d0_w32 (ix2 r q) = BitVec.ofNat 32 r.val :=
    iota_single_apply .tc S512x2048 32 0 iota_S512x2048_d0_w32 (ix2 r q)
  rw [truncf_apply, sitofp_apply, extui_apply]
  show FloatOps.sitofp (F := Ideal) .f32 (BitVec.setWidth 32 (IntOp.cmpi .eq
    ((broadcastTo S512x2048 (subi v2 (broadcast S1x2048 b)) broadcasts_S1x2048_S512x2048) (ix2 r q))
    ((iota .tc S512x2048 32 [0] iota_S512x2048_d0_w32) (ix2 r q)))) = _
  rw [hb, hi]
  by_cases h : v2 (ix2 0 q) - b = BitVec.ofNat 32 r.val
  · rw [if_pos h, StableHlo.Predicate.cmpi_eq_iff.2 h]
    show (((BitVec.setWidth 32 1#1).toInt : ℝ) : EReal) = 1
    have : (BitVec.setWidth 32 1#1).toInt = 1 := by decide
    rw [this]; simp
  · rw [if_neg h, eq_zero_of_ne_one (mt StableHlo.Predicate.cmpi_eq_iff.1 h)]
    show (((BitVec.setWidth 32 0#1).toInt : ℝ) : EReal) = 0
    have : (BitVec.setWidth 32 0#1).toInt = 0 := by decide
    rw [this]; simp

/-- Column `q` of the index block, seen as a `[1, 2048]` row, is the block's word at `(0, 0, q)`. -/
theorem idxrow_apply (x0 : Vec Ideal S1x1x2048 .i32) (q : Fin 2048) :
    (shapeCast S1x2048 (shapeCast S1x1x2048 x0 shapeCasts_S1x1x2048_S1x1x2048) shapeCasts_S1x1x2048_S1x2048) (ix2 0 q)
      = x0 (ix3 0 0 q) := by
  rw [shapeCast_self]
  refine shapeCast_apply _ _ (ix2 0 q) (ix3 0 0 q) ?_
  rw [Shape.rowMajor_val_three, Shape.rowMajor_val_two]
  simp

/-- ONE PASS AT AN ELEMENT: the carried value plus the slice's row `p` against column `q` of the 0/1 matrix. -/
theorem pay2_apply (x0 : Vec Ideal S1x1x2048 .i32) (k : Fin k0_t1_loop.trips) (acc : FVec Ideal S64x2048 .f32)
    (v19 : FVec Ideal S64x512 .bf16) (p : Fin 64) (q : Fin 2048) :
    k0_pay2 (F := Ideal) x0 k acc v19 (ix2 p q)
      = acc (ix2 p q) + ∑ r : Fin 512, v19 (ix2 p r)
          * (if x0 (ix3 0 0 q) - BitVec.ofNat 32 (512 * k.val) = BitVec.ofNat 32 r.val then (1 : EReal) else 0) := by
  unfold k0_pay2
  refine congrArg (acc (ix2 p q) + ·) ((matmul_at _ _ p q).trans ?_)
  refine Finset.sum_congr rfl fun r _ => ?_
  refine congrArg₂ (· * ·) (congrFun (shapeCast_self v19 _) _) ((hot_entry _ _ r q).trans ?_)
  rw [idxrow_apply, base_eq]

/-- The shifted word is row number `r` exactly when the word's value is `512·k + r` (for a value below 8192). -/
theorem hot_iff (a : BitVec 32) (ha : a.toNat < 8192) (k : ℕ) (hk : k < 16) (r : Fin 512) :
    a - BitVec.ofNat 32 (512 * k) = BitVec.ofNat 32 r.val ↔ a.toNat = 512 * k + r.val := by
  have hr := r.isLt
  constructor
  · intro h
    have := congrArg BitVec.toNat h
    rw [BitVec.toNat_sub, BitVec.toNat_ofNat, BitVec.toNat_ofNat] at this
    omega
  · intro h
    apply BitVec.eq_of_toNat_eq
    rw [BitVec.toNat_sub, BitVec.toNat_ofNat, BitVec.toNat_ofNat]
    omega

/-- Pass `k`'s slice at `(p, r)` is the table at column `512·k + r`. -/
theorem slice_apply (wT : Vec Ideal S64x8192 .bf16) (k : Fin k0_t1_loop.trips) (p : Fin 64) (r : Fin 512) :
    View.ld wT (slice k) (ix2 p r)
      = wT (ix2 p ⟨512 * k.val + r.val, by
          have hk : k.val < 16 := Nat.lt_of_lt_of_eq k.isLt trips_eq
          have := r.isLt; omega⟩) := by
  show wT ((slice k).idx (ix2 p r)) = _
  refine congrArg wT (funext fun a => Fin.ext ?_)
  rw [LoadRect.idx_apply]
  match a with
  | ⟨0, _⟩ => simp [Rect.unit, k0_off1_eq k]
  | ⟨1, _⟩ => simp [Rect.unit, k0_off1_eq k]

/-- THE INVARIANT: for row numbers below 8192, the value carried into pass `n` holds the table's entry where the
    row number is below `512·n` — a pass already met it — and zero elsewhere. -/
theorem carried_apply (x0 : Vec Ideal S1x1x2048 .i32) (wT : Vec Ideal S64x8192 .bf16)
    (hx : ∀ q : Fin 2048, BitVec.toNat (x0 (ix3 0 0 q)) < 8192) (n : ℕ) (hn : n ≤ 16) (p : Fin 64) (q : Fin 2048) :
    carried (F := Ideal) x0 wT n (ix2 p q)
      = if BitVec.toNat (x0 (ix3 0 0 q)) < 512 * n then wT (ix2 p (Cert.Lookup.rowOf (x0 (ix3 0 0 q)))) else (0 : EReal) := by
  induction n with
  | zero =>
    rw [if_neg (by omega)]
    show Ideal.ofBits .f32 0x00000000#32 = 0
    exact Ideal.ofBits_zero_f32
  | succ n ih =>
    have ih := ih (by omega)
    obtain ⟨k, rfl⟩ : ∃ k : Fin k0_t1_loop.trips, k.val = n := ⟨⟨n, by rw [trips_eq]; omega⟩, rfl⟩
    have hk : k.val < 16 := by omega
    rw [carried_succ]
    refine (pay2_apply x0 k _ _ p q).trans ?_
    rw [ih]
    have ha := hx q
    generalize x0 (ix3 0 0 q) = a at ha ⊢
    by_cases h1 : a.toNat < 512 * k.val
    · -- an earlier pass met this row; this pass adds nothing
      rw [if_pos h1, if_pos (by omega), Cert.Lookup.sum_mul_zero _ _ (fun r => if_neg (mt (hot_iff a ha k.val hk r).1 (by have := r.isLt; omega)))]
      simp
    · by_cases h2 : a.toNat < 512 * k.val + 512
      · -- this pass meets the row, at column `a − 512·k` of its slice
        rw [if_neg h1, if_pos (by omega), zero_add]
        have hcond : ∀ r : Fin 512, (a - BitVec.ofNat 32 (512 * k.val) = BitVec.ofNat 32 r.val) ↔ r = ⟨a.toNat - 512 * k.val, by omega⟩ :=
          fun r => (hot_iff a ha k.val hk r).trans ⟨fun h => Fin.ext (by simp only []; omega), fun h => by subst h; simp only []; omega⟩
        simp only [hcond]
        rw [Cert.Lookup.sum_mul_onehot, slice_apply]
        refine congrArg wT (congrArg (ix2 p) (Fin.ext ?_))
        rw [Cert.Lookup.rowOf_val_of_lt ha]
        simp only []; omega
      · -- a later pass will
        rw [if_neg h1, if_neg (by omega), Cert.Lookup.sum_mul_zero _ _ (fun r => if_neg (mt (hot_iff a ha k.val hk r).1 (by have := r.isLt; omega)))]
        simp

/-- AFTER THE LAST PASS the carried value is the table's entry at every element. -/
theorem carried_last (x0 : Vec Ideal S1x1x2048 .i32) (wT : Vec Ideal S64x8192 .bf16)
    (hx : ∀ q : Fin 2048, BitVec.toNat (x0 (ix3 0 0 q)) < 8192) (p : Fin 64) (q : Fin 2048) :
    carried (F := Ideal) x0 wT k0_t1_loop.trips (ix2 p q) = wT (ix2 p (Cert.Lookup.rowOf (x0 (ix3 0 0 q)))) := by
  rw [trips_eq, carried_apply x0 wT hx 16 (le_refl _) p q, if_pos (by have := hx q; omega)]

end Cert.KernelIdeal.Block

end
-- ==== Proof.KerView.lean ====
/-
  The kernel's data movement around its region, as pure functions, and the result as the specification.

  Before the region the index array is clamped to `[0, 8191]` — the identity on row numbers — and viewed as
  `[16, 1, 32768]`; the table is transposed. The region fills `out3[b, p, s] = wT[p, idx3[b, 0, s]]`
  (`lookup3`). After it the `[16, 64, 32768]` output is viewed as `[16, 64, 64, 64, 8]`. Both views keep
  row-major order, under which `s = (h·64 + w)·8 + t`; so the result at `(b, p, h, w, t)` is
  `tab[idx[b, h, w, t], p]`: `Cert.Lookup.lookup`.
-/
import proofs.«420841_j41901700940494_3_alg».proof.Proof.Gen.KernelIdeal
import proofs.«420841_j41901700940494_3_alg».proof.Proof.Spec
import Idealize.ShloMosaic.Lib.ValueIdx
import Idealize.ShloMosaic.Lib.Pipeline.Value
import Idealize.ShloMosaic.Lib.StableHlo.Predicate

noncomputable section

namespace Cert.KernelIdeal.View

open Idealize.ShloMosaic Idealize.ShloMosaic.ValueIdx
open Cert.KernelIdeal Cert.KernelIdeal.Gen

/-- The clamp of every index word to `[0, 8191]`. -/
def clip (idx : IVec S16x64x64x8 32) : IVec S16x64x64x8 32 :=
  minsi (broadcastInDim S16x64x64x8 ![] bcast_S_S16x64x64x8 (constantI S_ 32 8191#32))
    (maxsi (broadcastInDim S16x64x64x8 ![] bcast_S_S16x64x64x8 (constantI S_ 32 0#32)) idx)

/-- On row numbers the clamp does nothing. -/
theorem clip_apply (idx : IVec S16x64x64x8 32) (i : S16x64x64x8.Idx) (h : (idx i).toNat < 8192) : clip idx i = idx i := by
  show IntOp.minsi (8191#32) (IntOp.maxsi (0#32) (idx i)) = idx i
  generalize idx i = a at h
  have ha : a.toInt = a.toNat := StableHlo.Predicate.toInt_eq_toNat_of_lt (by omega)
  have h0 : (0#32 : BitVec 32).toInt = 0 := by decide
  have h8 : (8191#32 : BitVec 32).toInt = 8191 := by decide
  have h1 : IntOp.maxsi (0#32) a = a := by
    unfold IntOp.maxsi
    rw [if_neg]; simp only [BitVec.slt, ha, h0, decide_eq_true_eq]; omega
  rw [h1]
  unfold IntOp.minsi
  rw [if_neg]; simp only [BitVec.slt, ha, h8, decide_eq_true_eq]; omega

/-- `out3[b, p, s] = wT[p, idx3[b, 0, s]]`. -/
def lookup3 (x : S16x1x32768.Idx → BitVec 32) (w : S64x8192.Idx → EReal) : S16x64x32768.Idx → EReal := fun i =>
  let b : Fin 16 := i 0; let p : Fin 64 := i 1; let s : Fin 32768 := i 2
  w (ix2 p (Cert.Lookup.rowOf (x (ix3 b 0 s))))

/-- The index operand holds row numbers when the index array does. -/
theorem idx3_lt (idx : IVec S16x64x64x8 32) (h : Cert.Lookup.InRange idx) (i : S16x1x32768.Idx) :
    BitVec.toNat (shapeCast S16x1x32768 (clip idx) shapeCasts_S16x64x64x8_S16x1x32768 i) < 8192 := by
  unfold shapeCast
  rw [clip_apply idx _ (h _)]
  exact h _

/-- THE RESULT IS THE LOOKUP. -/
theorem view_eq_lookup (idx : IVec S16x64x64x8 32) (tab : FVec Ideal S8192x64 .f32) (h : Cert.Lookup.InRange idx) :
    shapeCast S16x64x64x64x8
        (lookup3 (shapeCast S16x1x32768 (clip idx) shapeCasts_S16x64x64x8_S16x1x32768)
          (transpose S64x8192 [1, 0] (truncf (F := Ideal) .bf16 tab bitsLt_bf16_f32) transposes_S8192x64_S64x8192_1_0))
        shapeCasts_S16x64x32768_S16x64x64x64x8
      = Cert.Lookup.lookup idx tab := by
  funext j
  obtain ⟨b, p, hh, w, t, rfl⟩ : ∃ (b : Fin 16) (p : Fin 64) (hh : Fin 64) (w : Fin 64) (t : Fin 8), j = ix5 b p hh w t :=
    ⟨j 0, j 1, j 2, j 3, j 4, eq_ix5 j⟩
  have hb := b.isLt; have hp := p.isLt; have hhh := hh.isLt; have hw := w.isLt; have ht := t.isLt
  -- the output's view: `s = (h·64 + w)·8 + t`
  refine (shapeCast_apply _ _ (ix5 b p hh w t) (ix3 b p (⟨(hh.val * 64 + w.val) * 8 + t.val, by omega⟩ : Fin 32768)) ?_).trans ?_
  · rw [Shape.rowMajor_val_three, Shape.rowMajor_val_five]
    show (b.val * 64 + p.val) * 32768 + ((hh.val * 64 + w.val) * 8 + t.val)
      = ((((b.val * 64 + p.val) * 64 + hh.val) * 64 + w.val) * 8 + t.val)
    omega
  rw [Cert.Lookup.lookup_apply]
  show transpose S64x8192 [1, 0] (truncf (F := Ideal) .bf16 tab bitsLt_bf16_f32) transposes_S8192x64_S64x8192_1_0
      (ix2 p (Cert.Lookup.rowOf (shapeCast S16x1x32768 (clip idx) shapeCasts_S16x64x64x8_S16x1x32768
        (ix3 b 0 (⟨(hh.val * 64 + w.val) * 8 + t.val, by omega⟩ : Fin 32768))))) = _
  -- the index operand's view, and the clamp
  have hx : shapeCast S16x1x32768 (clip idx) shapeCasts_S16x64x64x8_S16x1x32768
      (ix3 b 0 (⟨(hh.val * 64 + w.val) * 8 + t.val, by omega⟩ : Fin 32768)) = idx (ix4 b hh w t) := by
    refine (shapeCast_apply _ _ _ (ix4 b hh w t) ?_).trans (clip_apply idx _ (h _))
    rw [Shape.rowMajor_val_four, Shape.rowMajor_val_three]
    show (((b.val * 64 + hh.val) * 64 + w.val) * 8 + t.val) = (b.val * 1 + 0) * 32768 + ((hh.val * 64 + w.val) * 8 + t.val)
    omega
  rw [hx]
  -- the transposed table
  refine (transpose_apply _ _ _ (ix2 p (Cert.Lookup.rowOf (idx (ix4 b hh w t)))) (ix2 (Cert.Lookup.rowOf (idx (ix4 b hh w t))) p) ?_).trans rfl
  intro a
  match a with
  | ⟨0, _⟩ => rfl
  | ⟨1, _⟩ => rfl

end Cert.KernelIdeal.View

end
-- ==== Proof.KerArray.lean ====
/-
  From one grid point's block to the kernel's whole result.

  The grid is `16 × 16`: point `(b, n)` reads the `[1, 1, 2048]` block `(b, 0, n)` of the index array
  `idx3 : [16, 1, 32768]`, the whole transposed table `wT : [64, 8192]`, and writes the `[1, 64, 2048]`
  block `(b, 0, n)` of the output `[16, 64, 32768]`. By the loop's invariant the block it writes is
  `out3[b, p, 2048n + q] = wT[p, idx3[b, 0, 2048n + q]]`: every point writes its block of ONE whole-array
  function (`lookup3`), the 256 blocks tile the output, so the output array ends holding that function.

  Around the region the program only re-lays data (the clamp and the views before it, the view after it,
  read as pure functions elsewhere); with those the program's result is `Cert.Lookup.lookup` of its
  two arguments whenever the index array holds row numbers: `run`.
-/
import proofs.«420841_j41901700940494_3_alg».proof.Proof.KerPass
import proofs.«420841_j41901700940494_3_alg».proof.Proof.KerView
import Idealize.ShloMosaic.Lib.StableHlo.Run

set_option maxRecDepth 16384

noncomputable section

namespace Cert.KernelIdeal.Array

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Block Cert.KernelIdeal.View

/-! ## What the region finds in its two operand arrays -/

variable (m : (ℓ : Loc nD τ sig) → Buf (Elt Ideal) ℓ) (ρ : Dev nD → PrngReg)

/-- The index operand: the clamped index array viewed as `[16, 1, 32768]`. -/
theorem V_main_v1 (c : Dev nD) :
    (V m c main_v1 : S16x1x32768.Idx → BitVec 32)
      = shapeCast S16x1x32768 (clip (m ((c : Thread nD τ).loc main_arg0))) shapeCasts_S16x64x64x8_S16x1x32768 := by
  dsimp only [V, V0]
  simp only [hostOps0, hostOps0_1, hostOps0_2, List.flatten_cons, List.flatten_nil, List.append_nil, List.cons_append, List.nil_append]
  after_results
  rfl

/-- The table operand: the table transposed (its narrowing of float format is the identity at the ideal instance). -/
theorem V_main_v3 (c : Dev nD) :
    (V m c main_v3 : S64x8192.Idx → EReal)
      = transpose S64x8192 [1, 0] (truncf (F := Ideal) .bf16 (m ((c : Thread nD τ).loc main_arg1)) bitsLt_bf16_f32) transposes_S8192x64_S64x8192_1_0 := by
  dsimp only [V, V0]
  simp only [hostOps0, hostOps0_1, hostOps0_2, List.flatten_cons, List.flatten_nil, List.append_nil, List.cons_append, List.nil_append]
  after_results

/-- The two operand arrays, named at their literal types. -/
abbrev idx3 (c : Dev nD) : S16x1x32768.Idx → BitVec 32 := V m c main_v1
abbrev wT (c : Dev nD) : S64x8192.Idx → EReal := V m c main_v3

/-! ## The grid -/

/-- The printed index maps over the 256 points: the index block and the output block move together, `(b, 0, n)`;
    the table's block is always the whole table. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 2) = 0 ∧ win0_1.index t (1 : Fin 2) = 0
    ∧ win0_2.index t (1 : Fin 3) = 0 ∧ win0_2.index t (0 : Fin 3) ≤ 15 ∧ win0_2.index t (2 : Fin 3) ≤ 15 :=
  (by decide +kernel : ∀ t : Fin grid0.N, _)

/-- Every output block `(b, 0, n)` is some point's. -/
theorem idx_onto : ∀ (b : Fin 16) (n : Fin 16), ∃ t : Fin cfg0.N, win0_2.index t = ![b.val, 0, n.val] :=
  (by decide +kernel : ∀ (b : Fin 16) (n : Fin 16), ∃ t : Fin grid0.N, win0_2.index t = ![b.val, 0, n.val])

/-! ## The whole-array function and what each point writes back -/

/-- The stored block at `(0, p, q)` is the carried value at `(p, q)`. -/
theorem pay3_apply (v6 : FVec Ideal S64x2048 .f32) (p : Fin 64) (q : Fin 2048) :
    k0_pay3 (F := Ideal) v6 (ix3 0 p q) = v6 (ix2 p q) := by
  unfold k0_pay3
  refine shapeCast_apply _ _ (ix3 0 p q) (ix2 p q) ?_
  rw [Shape.rowMajor_val_three, Shape.rowMajor_val_two]
  simp

/-- A point's index block and table block, read off the operand arrays through the point's rectangles. -/
theorem iblk0_apply (c : Dev nD) (t : Fin cfg0.N) (y : S1x1x2048.Idx) :
    iblk m c 0 t y = idx3 m c (((cfg0.win 0).blk t).view.emb y) := rfl
theorem iblk1_apply (c : Dev nD) (t : Fin cfg0.N) (y : S64x8192.Idx) :
    iblk m c 1 t y = wT m c (((cfg0.win 1).blk t).view.emb y) := rfl

/-- WHAT POINT `t` WRITES BACK is block `t` of `lookup3` of the operand arrays, when those hold row numbers. -/
theorem flushed_eq (c : Dev nD) (hx : ∀ i, BitVec.toNat (idx3 m c i) < 8192) (t : Fin cfg0.N) :
    (dats m 0 c).flushed 2 t = ((cfg0.win 2).blk t).view.read (Elt Ideal) (lookup3 (idx3 m c) (wT m c)) := by
  show (cfg0.win 2).cut (grid0.coords t) ((dats m 0 c).after 2 t) = _
  rw [after0_2]
  unfold outsAt0
  rw [out_eq]
  obtain ⟨e0, e1, e2, e3, e4, e5, e6, e7⟩ := idx_facts t
  funext j
  obtain ⟨z, p, q, rfl⟩ : ∃ (z : Fin 1) (p : Fin 64) (q : Fin 2048), j = ix3 z p q := ⟨j 0, j 1, j 2, eq_ix3 j⟩
  obtain rfl : z = 0 := Subsingleton.elim _ _
  show k0_pay3 (carried (iblk m c 0 t) (iblk m c 1 t) k0_t1_loop.trips) (ix3 0 p q)
    = lookup3 (idx3 m c) (wT m c) (((cfg0.win 2).blk t).view.emb (ix3 0 p q))
  refine (pay3_apply _ p q).trans ?_
  have hxb : ∀ q' : Fin 2048, BitVec.toNat (iblk m c 0 t (ix3 0 0 q')) < 8192 := fun q' => by
    rw [iblk0_apply]; exact hx _
  refine (carried_last _ _ hxb p q).trans ?_
  rw [iblk1_apply, iblk0_apply]
  have hq := q.isLt
  -- where the three rectangles place the block's coordinates: block index × block size + coordinate
  have h0 : ((cfg0.win 0).blk t).view.emb (ix3 0 0 q)
      = ix3 (⟨win0_2.index t (0 : Fin 3), by omega⟩ : Fin 16) (0 : Fin 1) (⟨win0_2.index t (2 : Fin 3) * 2048 + q.val, by omega⟩ : Fin 32768) := by
    funext a; apply Fin.ext
    match a with
    | ⟨0, _⟩ => show win0_0.index t (0 : Fin 3) * 1 + 1 * 0 = win0_2.index t (0 : Fin 3); omega
    | ⟨1, _⟩ => show win0_0.index t (1 : Fin 3) * 1 + 1 * 0 = 0; omega
    | ⟨2, _⟩ => show win0_0.index t (2 : Fin 3) * 2048 + 1 * q.val = win0_2.index t (2 : Fin 3) * 2048 + q.val; omega
  have h1 : ∀ y : S64x8192.Idx, ((cfg0.win 1).blk t).view.emb y = y := by
    intro y; funext a; apply Fin.ext
    match a with
    | ⟨0, _⟩ => show win0_1.index t (0 : Fin 2) * 64 + 1 * (y 0).val = (y 0).val; omega
    | ⟨1, _⟩ => show win0_1.index t (1 : Fin 2) * 8192 + 1 * (y 1).val = (y 1).val; omega
  have h2 : ((cfg0.win 2).blk t).view.emb (ix3 0 p q)
      = ix3 (⟨win0_2.index t (0 : Fin 3), by omega⟩ : Fin 16) p (⟨win0_2.index t (2 : Fin 3) * 2048 + q.val, by omega⟩ : Fin 32768) := by
    funext a; apply Fin.ext
    match a with
    | ⟨0, _⟩ => show win0_2.index t (0 : Fin 3) * 1 + 1 * 0 = win0_2.index t (0 : Fin 3); omega
    | ⟨1, _⟩ => show win0_2.index t (1 : Fin 3) * 64 + 1 * p.val = p.val; omega
    | ⟨2, _⟩ => show win0_2.index t (2 : Fin 3) * 2048 + 1 * q.val = win0_2.index t (2 : Fin 3) * 2048 + q.val; omega
  rw [h0, h1, h2]
  rfl

/-- An index of the output array is in point `t`'s block iff each coordinate is in the block's range on its axis. -/
theorem mem_blk (t : Fin cfg0.N) (i : S16x64x32768.Idx) :
    i ∈ ((cfg0.win 2).blk t).view.set ↔ ∀ a : Fin 3, win0_2.index t a * S1x64x2048.size a ≤ (i a).val
      ∧ (i a).val < win0_2.index t a * S1x64x2048.size a + S1x64x2048.size a := by
  show i ∈ ((View.whole main_v4).slice (win0_2.rect t)).set ↔ _
  rw [View.set_slice_whole, Rect.mem_set_unit]
  exact Iff.rfl

/-- THE BLOCKS TILE THE OUTPUT: index `(b, p, s)` is in the block of the point at `(b, s / 2048)`. -/
theorem cover (i : S16x64x32768.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 32768 := (i 2).isLt
  obtain ⟨t, ht⟩ := idx_onto ⟨(i 0).val, hi0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 2048 ≤ (i 2).val ∧ (i 2).val < win0_2.index t (2 : Fin 3) * 2048 + 2048; omega

/-- THE OUTPUT ARRAY after the region: `lookup3` of the operand arrays. -/
theorem final (c : Dev nD) (hx : ∀ i, BitVec.toNat (idx3 m c i) < 8192) :
    (dats m 0 c).arrAt 2 cfg0.N = lookup3 (idx3 m c) (wT m c) :=
  (dats m 0 c).arrAt_eq_of_cover 2 _ (fun t _ => flushed_eq m c hx t) cover

/-! ## The view after the region, and the result as the specification -/

/-- The program's result buffer: the output array viewed as `[16, 64, 64, 64, 8]`. -/
theorem result_eq (c : Dev nD) (hx : ∀ i, BitVec.toNat (idx3 m c i) < 8192) :
    Pipeline.afterTail₀ cfgs (dats m) 0 (V0 m) [hostOps1] c main_v5
      = shapeCast S16x64x64x64x8 (lookup3 (idx3 m c) (wT m c)) shapeCasts_S16x64x32768_S16x64x64x64x8 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = lookup3 (idx3 m c) (wT m c) :=
    (Pipeline.withArrays_arr spec0 launch0.win.arr_inj c _ _ 2).trans (final m c hx)
  rw [hw]
  rfl

/-! ## The run -/

/-- THE KERNEL PROGRAM'S RUN on an index array of row numbers: every weakly fair execution terminates with the result
    buffer at the lookup of the two arguments, and the arguments unchanged. -/
theorem run (hin : ∀ c : Dev nD, Cert.Lookup.InRange (m ((c : Thread nD τ).loc main_arg0))) :
    θ_run defs (onTc (τ := τ) (main (F := Ideal))) ⟨m, fun _ => 0, ρ⟩ (fun r => ∀ c : Dev nD,
      r.2.mem ((c.tc : Thread nD τ).loc main_v5)
          = Cert.Lookup.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · have hx : ∀ i, BitVec.toNat (idx3 m c i) < 8192 := by
      intro i
      show BitVec.toNat ((V m c main_v1 : S16x1x32768.Idx → BitVec 32) i) < 8192
      rw [V_main_v1]
      exact idx3_lt _ (hin c) i
    refine ((h c).2 main_v5 (Pipeline.mem_restRefs_of main_v5 (by decide) (by decide))).trans ?_
    refine (result_eq m c hx).trans ?_
    show shapeCast S16x64x64x64x8 (lookup3 (V m c main_v1 : S16x1x32768.Idx → BitVec 32) (V m c main_v3 : S64x8192.Idx → EReal))
      shapeCasts_S16x64x32768_S16x64x64x64x8 = _
    rw [V_main_v1, V_main_v3]
    exact view_eq_lookup _ _ (hin c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Array

end
-- ==== Proof.RefRun.lean ====
/-
  The run of the reference program.

  The reference is a straight line of tensor operations once its two calls are unfolded: the outlined
  take (which itself calls the outlined three-way select) and then one transpose. This module lists those
  operations in order, names the pure term they compose to, and states the run: every weakly fair
  execution terminates with the result buffer at that term of the two arguments, and the arguments
  unchanged.

  In words, with idx : i32[16,64,64,8] and tab : f32[8192,64]:
    wrapped   = select (idx < 0) (idx + 8192) idx                        -- a negative index counts from the end
    start     = wrapped with a trailing unit axis                         : [16,64,64,8,1]
    inBounds  = and-reduce over the unit axis of (start ≥ 0 and start ≤ 8191)  : [16,64,64,8]
    gathered  = gather of rows of tab at start (start read signed, clamped)   : [16,64,64,8,64]
    refTerm   = transpose by [0,4,1,2,3] of select inBounds gathered NaN      : [16,64,64,64,8]
-/
import proofs.«420841_j41901700940494_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The composed term, piece by piece -/

/-- An index below zero (signed) has the table's height added to it; any other index is kept. -/
def wrapped (idx : IVec S16x64x64x8 32) : IVec S16x64x64x8 32 :=
  select (cmpi .slt idx (broadcastInDim S16x64x64x8 ![] bcast_S_S16x64x64x8 (constantI S_ 32 0#32)))
    (addi idx (broadcastInDim S16x64x64x8 ![] bcast_S_S16x64x64x8 (constantI S_ 32 8192#32))) idx

/-- The wrapped indices as start-index vectors of length one: a trailing unit axis. -/
def start (idx : IVec S16x64x64x8 32) : IVec S16x64x64x8x1 32 :=
  broadcastInDim S16x64x64x8x1 ![0, 1, 2, 3] bcast_S16x64x64x8_S16x64x64x8x1_0_1_2_3 (wrapped idx)

/-- Whether each start index lies in [0, 8191] as a signed integer: the conjunction over the unit axis. -/
def inBounds (idx : IVec S16x64x64x8 32) : IVec S16x64x64x8 1 :=
  Host.reduce IntOp.andi
    (andi
      (cmpi .sge (start idx) (broadcastInDim S16x64x64x8x1 ![] bcast_S_S16x64x64x8x1 (constantI S_ 32 0#32)))
      (cmpi .sle (start idx)
        (broadcastInDim S16x64x64x8x1 ![0, 1, 2, 3, 4] bcast_S1x1x1x1x1_S16x64x64x8x1_0_1_2_3_4
          (broadcastInDim S1x1x1x1x1 ![4] bcast_S1_S1x1x1x1x1_4 (constantI S1 32 8191#32)))))
    (constantI S_ 1 1#1) reducesTo_S16x64x64x8x1_S16x64x64x8_d4 h_S_

/-- The table's rows gathered at the start indices. -/
def gathered (idx : IVec S16x64x64x8 32) (tab : FVec F S8192x64 .f32) : FVec F S16x64x64x8x64 .f32 :=
  Host.gather gather_S8192x64_S16x64x64x8x1_S16x64x64x8x64_4_0_n_n_0_4_164 tab (start idx)

/-- What the reference computes from its two arguments: the gathered rows where the index was in bounds, the
    not-a-number constant elsewhere, with the channel axis moved next to the batch axis. -/
def refTerm (idx : IVec S16x64x64x8 32) (tab : FVec F S8192x64 .f32) : FVec F S16x64x64x64x8 .f32 :=
  transpose S16x64x64x64x8 [0, 4, 1, 2, 3]
    (select
      (broadcastInDim S16x64x64x8x64 ![0, 1, 2, 3] bcast_S16x64x64x8_S16x64x64x8x64_0_1_2_3 (inBounds idx))
      (gathered idx tab)
      (broadcastInDim S16x64x64x8x64 ![] bcast_S_S16x64x64x8x64 (constant S_ .f32 0x7FC00000#32)))
    transposes_S16x64x64x8x64_S16x64x64x64x8_0_4_1_2_3

/-! ## The program as a list of operations -/

/-- The twenty-four operations in order, the calls unfolded where they are made: the take's twenty-three over the
    buffers of its call (the three-way select it calls being the seventh, over the buffers of that inner call), then the
    transpose. -/
abbrev ops : List (HloOp τ sig (Elt F)) :=
  [ TRef.nullary main_call0.c (constantI S_ 32 0#32),
    TRef.unary main_call0.c main_call0.v0 (broadcastInDim S16x64x64x8 ![] bcast_S_S16x64x64x8),
    TRef.binary (.of main_arg0) main_call0.v0 main_call0.v1 (cmpi .slt),
    TRef.nullary main_call0.c_0 (constantI S_ 32 8192#32),
    TRef.unary main_call0.c_0 main_call0.v2 (broadcastInDim S16x64x64x8 ![] bcast_S_S16x64x64x8),
    TRef.binary (.of main_arg0) main_call0.v2 main_call0.v3 addi,
    TRef.ternary main_call0.v1 main_call0.v3 (.of main_arg0) main_call0.call0.v0 select,
    TRef.unary main_call0.call0.v0 main_call0.v5 (broadcastInDim S16x64x64x8x1 ![0, 1, 2, 3] bcast_S16x64x64x8_S16x64x64x8x1_0_1_2_3),
    TRef.nullary main_call0.c_1 (constantI S1 32 8191#32),
    TRef.nullary main_call0.c_2 (constantI S_ 32 0#32),
    TRef.unary main_call0.c_2 main_call0.v6 (broadcastInDim S16x64x64x8x1 ![] bcast_S_S16x64x64x8x1),
    TRef.binary main_call0.v5 main_call0.v6 main_call0.v7 (cmpi .sge),
    TRef.unary main_call0.c_1 main_call0.v8 (broadcastInDim S1x1x1x1x1 ![4] bcast_S1_S1x1x1x1x1_4),
    TRef.unary main_call0.v8 main_call0.v9 (broadcastInDim S16x64x64x8x1 ![0, 1, 2, 3, 4] bcast_S1x1x1x1x1_S16x64x64x8x1_0_1_2_3_4),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x64x64x8x1_S16x64x64x8_d4 h_S_),
    TRef.binary (.of main_arg1) main_call0.v5 main_call0.v13 (fun x i => Host.gather gather_S8192x64_S16x64x64x8x1_S16x64x64x8x64_4_0_n_n_0_4_164 x i),
    TRef.unary main_call0.v12 main_call0.v14 (broadcastInDim S16x64x64x8x64 ![0, 1, 2, 3] bcast_S16x64x64x8_S16x64x64x8x64_0_1_2_3),
    TRef.nullary main_call0.cst (constant S_ .f32 0x7FC00000#32),
    TRef.unary main_call0.cst main_call0.v15 (broadcastInDim S16x64x64x8x64 ![] bcast_S_S16x64x64x8x64),
    TRef.ternary main_call0.v14 main_call0.v13 main_call0.v15 main_call0.v16 select,
    unary main_v0 main_v1 ((transpose S16x64x64x64x8 [0, 4, 1, 2, 3] · transposes_S16x64x64x8x64_S16x64x64x64x8_0_4_1_2_3) : (⟨S16x64x64x8x64, .f32⟩ : BufTy).Contents (Elt F) → (⟨S16x64x64x64x8, .f32⟩ : BufTy).Contents (Elt F)) ]

-- twenty-four binds re-associated under the two unfolded calls
set_option maxRecDepth 1024 in
/-- The program is that straight line: the two functions unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-! ## What the buffers hold after the line -/

attribute [local irreducible] Host.reduce Host.gather in
set_option maxRecDepth 8192 in
/-- The result buffer holds the composed term of the two arguments' contents. -/
theorem result_eq (V : Valuation τ sig (Elt F)) :
    after ops V (main_v1 : DevRef τ sig) = refTerm (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-! ## The run -/

/-- On every device, for any float values, from any memory with zero counters: every weakly fair execution of the
    program terminates with the result buffer at the composed term of the two arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v1).trans (result_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's term is the lookup, on the domain of the claim.

  Fix an index array whose every word is below 8192. Such a word is non-negative as a signed integer, so
  the wrap-around select keeps it: the wrapped index is the index. Both range tests on it hold, so the
  conjunction over the unit axis, an and-reduction of ones from one, is one, and the final select takes the
  gathered branch everywhere. The gather reads, at (b, h, w, t, c), row `start` and column c of the table,
  where `start` is the word at (b, h, w, t) read as a signed integer and cut into [0, 8191]: for a word below
  8192 that is the word's value. Last, the transpose by [0, 4, 1, 2, 3] reads position (b, c, h, w, t) of the
  result from position (b, h, w, t, c). Together: the result at (b, c, h, w, t) is the table at row
  idx[b, h, w, t], column c.
-/
import proofs.«420841_j41901700940494_3_alg».proof.Proof.RefRun
import proofs.«420841_j41901700940494_3_alg».proof.Proof.Spec
import Idealize.ShloMosaic.Lib.ValueIdx
import Idealize.ShloMosaic.Lib.StableHlo.Predicate
import Idealize.ShloMosaic.Lib.Pipeline.Value

noncomputable section

namespace Cert.ReferenceIdeal.RefValue

open Cert.ReferenceIdeal Cert.ReferenceIdeal.Gen Cert.ReferenceIdeal.RefRun Cert.Lookup
open Idealize.ShloMosaic Idealize.ShloMosaic.ValueIdx Idealize.ShloMosaic.StableHlo.Predicate

variable {F : FTy → Type} [FloatOps F]

/-! ## An and-reduction of ones is one -/

/-- A left fold by `and` from 1 over a list whose every term is 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- An and-reduction, from the initial value 1, of an array of ones is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun n _ => hx n

/-! ## The pieces of the term at an index -/

/-- A word below 8192 is not negative, so the wrap-around keeps it. -/
theorem wrapped_apply (idx : IVec S16x64x64x8 32) (p : S16x64x64x8.Idx) (hp : (idx p).toNat < 8192) :
    wrapped idx p = idx p := by
  have hneg : IntOp.cmpi .slt (idx p) 0#32 = 0#1 :=
    eq_zero_of_ne_one fun h1 =>
      Nat.not_lt_zero _ ((slt_iff_toNat (a := idx p) (b := 0#32) (by omega) (by decide)).mp h1)
  show Scalar.select (IntOp.cmpi .slt (idx p) 0#32) (IntOp.addi (idx p) 8192#32) (idx p) = idx p
  rw [hneg, select_zero]

/-- The start index at (b, h, w, t, ·) is the wrapped index at (b, h, w, t). -/
theorem start_apply (idx : IVec S16x64x64x8 32) (b : Fin 16) (h : Fin 64) (w : Fin 64) (t : Fin 8) (u : Fin 1) :
    start idx (ix5 b h w t u) = wrapped idx (ix4 b h w t) := by
  unfold start
  exact broadcastInDim_apply _ _ _ (ix5 b h w t u) (ix4 b h w t) fun a =>
    match a with
    | ⟨0, _⟩ => rfl
    | ⟨1, _⟩ => rfl
    | ⟨2, _⟩ => rfl
    | ⟨3, _⟩ => rfl

/-- On the domain every start index is in bounds. -/
theorem inBounds_apply (idx : IVec S16x64x64x8 32) (hin : InRange idx) (p : S16x64x64x8.Idx) :
    inBounds idx p = 1#1 := by
  unfold inBounds
  refine reduce_andi_ones _ _ _ _ rfl (fun i => ?_) p
  obtain ⟨b, h, w, t, u, rfl⟩ : ∃ (b : Fin 16) (h : Fin 64) (w : Fin 64) (t : Fin 8) (u : Fin 1), i = ix5 b h w t u :=
    ⟨i 0, i 1, i 2, i 3, i 4, eq_ix5 i⟩
  show IntOp.andi (IntOp.cmpi .sge (start idx (ix5 b h w t u)) 0#32)
      (IntOp.cmpi .sle (start idx (ix5 b h w t u)) 8191#32) = 1#1
  have hx := hin (ix4 b h w t)
  rw [start_apply, wrapped_apply idx _ hx]
  have h0 : IntOp.cmpi .sge (idx (ix4 b h w t)) 0#32 = 1#1 :=
    (sge_iff_toNat (by omega) (by decide)).mpr (Nat.zero_le _)
  have h1 : IntOp.cmpi .sle (idx (ix4 b h w t)) 8191#32 = 1#1 :=
    (sle_iff_toNat (by omega) (by decide)).mpr (show (idx (ix4 b h w t)).toNat ≤ 8191 by omega)
  rw [h0, h1]
  rfl

/-- The gather's dimension record, under a short name. -/
abbrev gd : GatherDims S8192x64 S16x64x64x8x1 S16x64x64x8x64 :=
  gather_S8192x64_S16x64x64x8x1_S16x64x64x8x64_4_0_n_n_0_4_164

/-- On the domain the gather reads, at (b, h, w, t, c), the table at row idx[b, h, w, t] and column c. -/
theorem gathered_apply (idx : IVec S16x64x64x8 32) (tab : FVec F S8192x64 .f32) (hin : InRange idx)
    (b : Fin 16) (h : Fin 64) (w : Fin 64) (t : Fin 8) (c : Fin 64) :
    gathered idx tab (ix5 b h w t c) = tab (ix2 (rowOf (idx (ix4 b h w t))) c) := by
  unfold gathered Host.gather
  refine congrArg tab (funext fun a => Fin.ext ?_)
  match a with
  | ⟨0, _⟩ =>
    -- the row: the one start-indexed axis, collapsed, so neither a batch nor an offset coordinate
    have hb : (0 : Fin 2) ∉ gd.operandBatchingDims := List.not_mem_nil
    have hk : (0 : Fin 2) ∉ gd.sKept := fun hm => ((GatherDims.mem_sKept _ _).mp hm).1 (List.mem_singleton.mpr rfl)
    have hm : (0 : Fin 2) ∈ gd.startIndexMap := List.mem_singleton.mpr rfl
    show gd.start (ix5 b h w t c) (start idx) 0 + gd.batchCoord (ix5 b h w t c) 0 + gd.offCoord (ix5 b h w t c) 0
      = min (idx (ix4 b h w t)).toNat 8191
    rw [GatherDims.batchCoord_eq_zero _ _ _ hb, GatherDims.offCoord_eq_zero _ _ _ hk]
    simp only [Nat.add_zero]
    unfold GatherDims.start
    rw [dif_pos hm]
    have hsi : gd.siIdx (ix5 b h w t c) ⟨List.idxOf (0 : Fin 2) gd.startIndexMap, List.idxOf_lt_length_iff.2 hm⟩
        = ix5 b h w t (0 : Fin 1) := by
      funext b'
      refine Fin.ext ?_
      match b' with
      | ⟨0, _⟩ => rfl
      | ⟨1, _⟩ => rfl
      | ⟨2, _⟩ => rfl
      | ⟨3, _⟩ => rfl
      | ⟨4, _⟩ => rfl
    have hx := hin (ix4 b h w t)
    rw [hsi, start_apply, wrapped_apply idx _ hx, toInt_eq_toNat_of_lt (by omega)]
    rfl
  | ⟨1, _⟩ =>
    -- the column: not start-indexed, kept, so the offset coordinate alone
    have hb : (1 : Fin 2) ∉ gd.operandBatchingDims := List.not_mem_nil
    have hm : (1 : Fin 2) ∉ gd.startIndexMap := by decide
    have hk : (1 : Fin 2) ∈ gd.sKept := (GatherDims.mem_sKept _ _).mpr ⟨by decide, List.not_mem_nil⟩
    show gd.start (ix5 b h w t c) (start idx) 1 + gd.batchCoord (ix5 b h w t c) 1 + gd.offCoord (ix5 b h w t c) 1
      = c.val
    rw [GatherDims.batchCoord_eq_zero _ _ _ hb]
    unfold GatherDims.start GatherDims.offCoord
    rw [dif_neg hm, dif_pos hk]
    simp only [Nat.zero_add, Nat.add_zero]
    rfl

/-! ## The term is the lookup -/

/-- On the domain of the claim the reference's composed term is the lookup. -/
theorem refTerm_eq_lookup (idx : IVec Cert.Lookup.SIdx 32) (tab : FVec Ideal Cert.Lookup.STab .f32)
    (h : Cert.Lookup.InRange idx) :
    Cert.ReferenceIdeal.RefRun.refTerm (F := Ideal) idx tab = Cert.Lookup.lookup idx tab := by
  funext j
  obtain ⟨b, c, y, x, t, rfl⟩ : ∃ (b : Fin 16) (c : Fin 64) (y : Fin 64) (x : Fin 64) (t : Fin 8), j = ix5 b c y x t :=
    ⟨j 0, j 1, j 2, j 3, j 4, eq_ix5 j⟩
  rw [lookup_apply]
  unfold refTerm
  -- the transpose: position (b, c, y, x, t) of the result is position (b, y, x, t, c) of its operand
  refine (transpose_apply _ _ _ (ix5 b c y x t) (ix5 b y x t c) fun a =>
    match a with
    | ⟨0, _⟩ => rfl
    | ⟨1, _⟩ => rfl
    | ⟨2, _⟩ => rfl
    | ⟨3, _⟩ => rfl
    | ⟨4, _⟩ => rfl).trans ?_
  -- the select: its condition is the in-bounds bit at (b, y, x, t), which is 1
  rw [select_apply]
  have hc : broadcastInDim S16x64x64x8x64 ![0, 1, 2, 3] bcast_S16x64x64x8_S16x64x64x8x64_0_1_2_3 (inBounds idx)
      (ix5 b y x t c) = 1#1 :=
    (broadcastInDim_apply _ _ _ (ix5 b y x t c) (ix4 b y x t) fun a =>
      match a with
      | ⟨0, _⟩ => rfl
      | ⟨1, _⟩ => rfl
      | ⟨2, _⟩ => rfl
      | ⟨3, _⟩ => rfl).trans (inBounds_apply idx h _)
  rw [hc, select_one]
  exact gathered_apply idx tab h b y x t c

end Cert.ReferenceIdeal.RefValue

end
-- ==== Proof.PreRange.lean ====
/-
  The printed precondition implies the domain of the lookup.

  The precondition is the conjunction of three tests, each an and-reduction over a whole array to one bit:
  every table entry is finite, every index word is non-negative as a signed integer, and every index word
  is below 8192 as a signed integer. A conjunction of bits is 1 only when each bit is 1, and an
  and-reduction from 1 is 1 only when every element is 1; so at every position the index word x satisfies
  0 ≤ x and x < 8192 as a signed integer. A non-negative signed word has its top bit clear and reads the
  same unsigned, hence its value as a natural number is below 8192: the word is a row number of the table.
-/
import proofs.«420841_j41901700940494_3_alg».proof.Pre_finite_inputs
import proofs.«420841_j41901700940494_3_alg».proof.Proof.Spec
import Idealize.ShloMosaic.Lib.ReduceAll

namespace Cert.Pre_finite_inputs.Range

open Idealize.ShloMosaic

/-- The scalar shape has exactly one index. -/
instance subsingleton_scalar_idx : Subsingleton S_.Idx := ⟨fun a b => funext fun d => d.elim0⟩

/-- A word that is at least 0 and below 8192 as a signed integer has a value below 8192. -/
theorem toNat_lt_of_signed_range {x : BitVec 32} (h0 : IntOp.cmpi .sge x 0#32 = 1#1)
    (h1 : IntOp.cmpi .slt x 8192#32 = 1#1) : x.toNat < 8192 := by
  rw [IntOp.cmpi_sge, show (0#32 : BitVec 32).toInt = 0 from by decide] at h0
  rw [IntOp.cmpi_slt, show (8192#32 : BitVec 32).toInt = 8192 from by decide] at h1
  have hx : x.toInt = x.toNat := BitVec.toInt_eq_toNat_of_lt (BitVec.toInt_pos_iff.mp h0)
  omega

variable [Facts]

/-- If the printed precondition holds of the index array (and any table), every index word is a row number. -/
theorem inRange_of_pre {F : FTy → Type} [FloatOps F] (idx : IVec S16x64x64x8 32) (w : FVec F S8192x64 .f32)
    (h : fn (F := F) idx w = fun _ => 1#1) : Cert.Lookup.InRange idx := by
  intro i
  have e := congrFun h ValueIdx.ix0
  dsimp only [fn, andi] at e
  rw [IntOp.andi_eq_one, IntOp.andi_eq_one] at e
  obtain ⟨⟨-, hge⟩, hlt⟩ := e
  have hge' : IntOp.cmpi .sge (idx i) 0#32 = 1#1 := Host.reduce_andi_all _ _ _ _ _ hge i
  have hlt' : IntOp.cmpi .slt (idx i) 8192#32 = 1#1 := Host.reduce_andi_all _ _ _ _ _ hlt i
  exact toNat_lt_of_signed_range hge' hlt'

end Cert.Pre_finite_inputs.Range
-- ==== Proof.lean ====
/-
  An embedding lookup computed as sixteen one-hot matrix products equals the gather it stands for.

  Both programs take an index array `idx : i32[16, 64, 64, 8]` and a table `tab : f32[8192, 64]` and return
  `f32[16, 64, 64, 64, 8]`. On the domain of the claim — the table finite (never used below) and every
  index a row number, `0 ≤ idx < 8192` — both return `out[b, c, h, w, t] = tab[idx[b, h, w, t], c]`
  (`Cert.Lookup.lookup`):

  * the reference gathers rows of the table (its wrap of negative indices and its out-of-range fill do
    nothing on row numbers) and moves the channel axis forward;
  * the kernel transposes the table and, per block of 2048 indices, sums over sixteen chunks of 512 table
    rows the product of the chunk with the 0/1 matrix `[idx − 512k = r]`; a column of that matrix has its
    single 1 in exactly one chunk, so the sum is the selected table entry — on all extended reals, since
    only `x·0 = 0`, `x·1 = x` and `x + 0 = x` are used; the 256 blocks tile the output, which is then viewed
    in the reference's layout.

  The three frames: the kernel's two are the generated frame certificates; the reference's is its run with
  the result dropped. The idealization rewrote nothing, so `preserves` is trivial.
-/
import proofs.«420841_j41901700940494_3_alg».proof.Defs
import proofs.«420841_j41901700940494_3_alg».proof.Proof.Gen.Kernel
import proofs.«420841_j41901700940494_3_alg».proof.Proof.Gen.Kernel.Skeleton
import proofs.«420841_j41901700940494_3_alg».proof.Proof.Gen.Kernel.Loops
import proofs.«420841_j41901700940494_3_alg».proof.Proof.Gen.Kernel.Launch
import proofs.«420841_j41901700940494_3_alg».proof.Proof.Gen.Kernel.Points
import proofs.«420841_j41901700940494_3_alg».proof.Proof.Gen.Kernel.Frame
import proofs.«420841_j41901700940494_3_alg».proof.Proof.Gen.KernelIdeal
import proofs.«420841_j41901700940494_3_alg».proof.Proof.Gen.KernelIdeal.Skeleton
import proofs.«420841_j41901700940494_3_alg».proof.Proof.Gen.KernelIdeal.Loops
import proofs.«420841_j41901700940494_3_alg».proof.Proof.Gen.KernelIdeal.Launch
import proofs.«420841_j41901700940494_3_alg».proof.Proof.Gen.KernelIdeal.Points
import proofs.«420841_j41901700940494_3_alg».proof.Proof.Gen.KernelIdeal.Frame
import proofs.«420841_j41901700940494_3_alg».proof.Proof.Gen.ReferenceIdeal
import proofs.«420841_j41901700940494_3_alg».proof.Proof.Gen.Pre_finite_inputs
import proofs.«420841_j41901700940494_3_alg».proof.Proof.KerArray
import proofs.«420841_j41901700940494_3_alg».proof.Proof.RefValue
import proofs.«420841_j41901700940494_3_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the lookup of the (agreeing) arguments: the precondition's two range tests say every index is
    a row number, which is all either side needs. -/
theorem algebraic : Cert.algebraic_KernelIdeal_ReferenceIdeal := by
  intro m ρ m' ρ' hpre hagree
  have hin : ∀ c : Dev Cert.KernelIdeal.nD,
      Cert.Lookup.InRange (m ((c.tc : Thread Cert.KernelIdeal.nD Cert.KernelIdeal.τ).loc Cert.KernelIdeal.main_arg0)) :=
    fun c => Cert.Pre_finite_inputs.Range.inRange_of_pre _ _ (hpre c)
  refine ⟨fun c => Cert.Lookup.lookup
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ hin, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refTerm_eq_lookup _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
